-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S100000x128 .f32) (main_v33 : IVec S_ 1) : IVec S_ 1 :=
  let main_v34 : FVec F S100000x128 .f32 := Host.absf main_arg9
  let main_cst_12 : FVec F S_ .f32 := constant S_ .f32 0x7F800000#32
  let main_v35 : FVec F S100000x128 .f32 := broadcastInDim S100000x128 ![] bcast_S_S100000x128 main_cst_12
  let main_v36 : IVec S100000x128 1 := cmpf .olt main_v34 main_v35
  let main_c_13 : IVec S_ 1 := constantI S_ 1 1#1
  let main_v37 : IVec S_ 1 := (fun x v => Host.reduce IntOp.andi x v reducesTo_S100000x128_S_d0_1 h_S_) main_v36 main_c_13
  let main_v38 : IVec S_ 1 := andi main_v33 main_v37
  main_v38

def fn_part1 {F : FTy → Type} [FloatOps F] (main_arg6 : FVec F S128x128 .f32) (main_arg7 : FVec F S128x128 .f32) (main_arg8 : FVec F S128 .f32) (main_arg9 : FVec F S100000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S100000x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 72
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_cst_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_12 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .i1⟩
  | .hbm, ⟨47, _⟩ => ⟨S_, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelPayload.lean ====
/-
  The two kernel bodies' stored values at an index, on the extended reals.

  Each body loads a 4000-row block of the node table and of the aggregate, the two weight matrices and the bias row,
  forms two products on the matrix unit into zero accumulators and adds them, then adds the bias row broadcast down the
  rows. The first body clamps below at zero and multiplies by its block of the dropout mask. The narrowing to bf16 in
  front of each product is the identity on extended reals, so at row `p` and feature `q` of the block a product is the
  plain sum over the contracted axis `k` of `a[p,k] · w[k,q]`.
-/
import proofs.«138506_j6193342841309_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.TcCoe Idealize.ShloMosaic.ValueIdx

/-! ## The block product's operand indices, axis by axis -/

theorem lhs_axis0 (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
theorem rhs_axis0 (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
theorem rhs_axis1 (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block product into the zero accumulator, at row `p` and feature `q`: the sum over `k` of `a[p,k] · w[k,q]`. -/
theorem product_apply {φ₁ φ₂ : FTy} (a : FVec Ideal S4000x128 φ₁) (w : FVec Ideal S128x128 φ₂) (p : Fin 4000) (q : Fin 128) :
    matmul dot_S4000x128_S128x128_S4000x128_1_0_0_1_n_n none a w (constant S4000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows, at row `p` and feature `q`: the row's entry `q`. -/
theorem biasRow_apply {α : Type} (b : S1x128.Idx → α) (p : Fin 4000) (q : Fin 128) :
    broadcastTo S4000x128 b broadcasts_S1x128_S4000x128 (ix2 p q) = b (ix2 0 q) := by
  refine broadcastTo_apply b broadcasts_S1x128_S4000x128 (ix2 p q) (ix2 0 q) fun a => ?_
  match a with
  | ⟨0, _⟩ => show 0 = if (1 : Nat) = 1 then 0 else _; rw [if_pos rfl]
  | ⟨1, _⟩ => show q.val = if (128 : Nat) = 1 then 0 else q.val; rw [if_neg (by decide)]

/-! ## The stored values -/

/-- First body, at row `p`, feature `q` of the block: the two products and the bias added, clamped below at zero, times the
    mask block's entry. -/
theorem pay_layer1 (x hn : Vec Ideal S4000x128 .f32) (ws wn : Vec Ideal S128x128 .f32) (b : Vec Ideal S1x128 .f32) (msk : Vec Ideal S4000x128 .f32)
    (p : Fin 4000) (q : Fin 128) :
    k0_pay1 (F := Ideal) x hn ws wn b msk (ix2 p q)
      = max ((∑ k : Fin 128, x (ix2 p k) * ws (ix2 k q)) + (∑ k : Fin 128, hn (ix2 p k) * wn (ix2 k q)) + b (ix2 0 q)) (Ideal.ofBits .f32 0x00000000#32) * msk (ix2 p q) := by
  unfold k0_pay1
  simp only [shapeCast_self]
  rw [mulf_apply, maximumf_apply, addf_apply, addf_apply, product_apply, product_apply, biasRow_apply]
  rfl

/-- Second body, at row `p`, feature `q` of the block: the two products and the bias added. -/
theorem pay_layer2 (x hn : Vec Ideal S4000x128 .f32) (ws wn : Vec Ideal S128x128 .f32) (b : Vec Ideal S1x128 .f32)
    (p : Fin 4000) (q : Fin 128) :
    k1_pay1 (F := Ideal) x hn ws wn b (ix2 p q)
      = (∑ k : Fin 128, x (ix2 p k) * ws (ix2 k q)) + (∑ k : Fin 128, hn (ix2 p k) * wn (ix2 k q)) + b (ix2 0 q) := by
  unfold k1_pay1
  simp only [shapeCast_self]
  rw [addf_apply, addf_apply, product_apply, product_apply, biasRow_apply]
  rfl

end Cert.KernelIdeal.Payload

end
-- ==== Proof.SageSpec.lean ====
/-
  What the two programs compute, index by index, on the extended reals.

  One SAGE layer at node `p` and output feature `q` is
      (∑ k, x[p,k] · W_self[k,q]) + (∑ k, h_neigh[p,k] · W_neigh[k,q]) + b[q],
  where `h_neigh` is the mean aggregate of `x` over incoming edges. The aggregate (a gather along `src`, a
  scatter-add along `dst`, a division by the clamped in-degree) is the same host computation in both programs and is
  never opened here: it enters only as the array `hn` a layer reads.
  The first layer is followed by `max(·, 0)` and the dropout mask; the second layer is the result.
-/
import Idealize.ShloMosaic.PureOps.Ideal
import Idealize.ShloMosaic.Lib.ValueIdx

noncomputable section

namespace Sage

open Idealize.ShloMosaic Idealize.ShloMosaic.ValueIdx

/-- The node table: 100000 nodes, 128 features. -/
abbrev Nodes : Shape := ⟨2, ![100000, 128]⟩
/-- A layer's weight matrix. -/
abbrev Weights : Shape := ⟨2, ![128, 128]⟩

/-- One layer's dense part at node `p`, feature `q`: the self product, plus the neighbour product, plus the bias. -/
def layerAt (x hn : Nodes.Idx → EReal) (ws wn : Weights.Idx → EReal) (b : Fin 128 → EReal) (p : Fin 100000) (q : Fin 128) : EReal :=
  (∑ k : Fin 128, x (ix2 p k) * ws (ix2 k q)) + (∑ k : Fin 128, hn (ix2 p k) * wn (ix2 k q)) + b q

/-- The first layer's output: the dense part clamped below at zero, times the dropout mask. -/
def hiddenOf (x hn : Nodes.Idx → EReal) (ws wn : Weights.Idx → EReal) (b : Fin 128 → EReal) (msk : Nodes.Idx → EReal) : Nodes.Idx → EReal :=
  fun i => max (layerAt x hn ws wn b (i 0) (i 1)) (Ideal.ofBits .f32 0x00000000#32) * msk i

/-- The second layer's output: the dense part alone. -/
def outOf (x hn : Nodes.Idx → EReal) (ws wn : Weights.Idx → EReal) (b : Fin 128 → EReal) : Nodes.Idx → EReal :=
  fun i => layerAt x hn ws wn b (i 0) (i 1)

end Sage

end
-- ==== Proof.Blocks.lean ====
/-
  From blocks to arrays: what each of the two kernel regions leaves in its output array, as one function of the arrays
  the region finds on entry.

  Both regions walk the node table in 25 blocks of 4000 rows. At grid point `t` the node table, the aggregate and (first
  region) the dropout mask are read at rows `4000·t … 4000·t + 3999`; the weight matrices and the bias row are read whole.
  The body's stored block is therefore rows `4000·t …` of the layer's whole-array function, the blocks tile the output
  array, and the array ends holding that function.
-/
import proofs.«138506_j6193342841309_1_alg».proof.Proof.Gen.KernelIdeal.Frame
import proofs.«138506_j6193342841309_1_alg».proof.Proof.KernelPayload
import proofs.«138506_j6193342841309_1_alg».proof.Proof.SageSpec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-! ## One block, over variables: the body's stored value is the layer's function at the block's rows -/

/-- First layer. If the loaded blocks are rows `row p` of the arrays `X`, `HN`, `M` and the weights and the bias row are the
    whole arrays, the stored value at `(p, q)` is the first layer's function at `(row p, q)`. -/
theorem hidden_block (X HN M : Sage.Nodes.Idx → EReal) (WS WN : Sage.Weights.Idx → EReal) (B : S1x128.Idx → EReal)
    (x hn msk : Vec Ideal S4000x128 .f32) (ws wn : Vec Ideal S128x128 .f32) (b : Vec Ideal S1x128 .f32)
    (row : Fin 4000 → Fin 100000)
    (hx : ∀ (p : Fin 4000) (k : Fin 128), x (ix2 p k) = X (ix2 (row p) k))
    (hhn : ∀ (p : Fin 4000) (k : Fin 128), hn (ix2 p k) = HN (ix2 (row p) k))
    (hm : ∀ (p : Fin 4000) (k : Fin 128), msk (ix2 p k) = M (ix2 (row p) k))
    (hws : ∀ (k q : Fin 128), ws (ix2 k q) = WS (ix2 k q)) (hwn : ∀ (k q : Fin 128), wn (ix2 k q) = WN (ix2 k q))
    (hb : ∀ q : Fin 128, b (ix2 0 q) = B (ix2 0 q)) (p : Fin 4000) (q : Fin 128) :
    k0_pay1 (F := Ideal) x hn ws wn b msk (ix2 p q) = Sage.hiddenOf X HN WS WN (fun q => B (ix2 0 q)) M (ix2 (row p) q) := by
  rw [Payload.pay_layer1]
  show _ = max ((∑ k : Fin 128, X (ix2 (row p) k) * WS (ix2 k q)) + (∑ k : Fin 128, HN (ix2 (row p) k) * WN (ix2 k q)) + B (ix2 0 q)) (Ideal.ofBits .f32 0x00000000#32) * M (ix2 (row p) q)
  simp only [hx, hhn, hm, hws, hwn, hb]

/-- Second layer, the same without the clamp and the mask. -/
theorem out_block (X HN : Sage.Nodes.Idx → EReal) (WS WN : Sage.Weights.Idx → EReal) (B : S1x128.Idx → EReal)
    (x hn : Vec Ideal S4000x128 .f32) (ws wn : Vec Ideal S128x128 .f32) (b : Vec Ideal S1x128 .f32)
    (row : Fin 4000 → Fin 100000)
    (hx : ∀ (p : Fin 4000) (k : Fin 128), x (ix2 p k) = X (ix2 (row p) k))
    (hhn : ∀ (p : Fin 4000) (k : Fin 128), hn (ix2 p k) = HN (ix2 (row p) k))
    (hws : ∀ (k q : Fin 128), ws (ix2 k q) = WS (ix2 k q)) (hwn : ∀ (k q : Fin 128), wn (ix2 k q) = WN (ix2 k q))
    (hb : ∀ q : Fin 128, b (ix2 0 q) = B (ix2 0 q)) (p : Fin 4000) (q : Fin 128) :
    k1_pay1 (F := Ideal) x hn ws wn b (ix2 p q) = Sage.outOf X HN WS WN (fun q => B (ix2 0 q)) (ix2 (row p) q) := by
  rw [Payload.pay_layer2]
  show _ = (∑ k : Fin 128, X (ix2 (row p) k) * WS (ix2 k q)) + (∑ k : Fin 128, HN (ix2 (row p) k) * WN (ix2 k q)) + B (ix2 0 q)
  simp only [hx, hhn, hws, hwn, hb]

/-- Every load and the store go through the whole staging buffer: offsets zero on both axes. -/
theorem zeroOffsets : (![0, 0] : Fin 2 → Nat) = fun _ => 0 := funext fun a => by fin_cases a <;> rfl

/-- Row `p` of the block at grid point `t` is row `4000·t + p` of the node table. -/
def rowOf (t : Nat) (ht : t < 25) (p : Fin 4000) : Fin 100000 := ⟨t * 4000 + p.val, by have := p.isLt; omega⟩
theorem rowOf_val (t : Nat) (ht : t < 25) (p : Fin 4000) : (rowOf t ht p).val = t * 4000 + p.val := rfl

variable (V : (c : Dev nD) → (b : Ref sig .tc) → Buf (Elt Ideal) ((c : Thread nD τ).loc b))

/-! ## The first region -/

/-- The printed index maps over the 25 grid points: the row-blocked windows sit at block `(t, 0)`, the weights and the
    bias row at block `(0, 0)`. -/
theorem blockIndex_layer1 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the first layer's function of the arrays the region finds. -/
theorem writeback_layer1 (c : Dev nD) (t : Fin cfg0.N) :
    (dat0 V c).flushed 6 t = ((cfg0.win 6).blk t).view.read (Elt Ideal)
      (Sage.hiddenOf (V c main_arg0) (V c main_v18) (V c main_arg3) (V c main_arg4) (fun q => V c main_v22 (ix2 0 q)) (V c main_v21)) := by
  show (cfg0.win 6).cut (grid0.coords t) ((dat0 V c).after 6 t) = _
  rw [after0_6]
  unfold out0_6
  rw [View.canon_unit_zero zeroOffsets]
  simp only [View.ld_unit_zero (S := S4000x128) zeroOffsets, View.ld_unit_zero (S := S128x128) zeroOffsets, View.ld_unit_zero (S := S1x128) zeroOffsets]
  obtain ⟨e00, e01, e10, e11, e20, e21, e30, e31, e40, e41, e50, e51, e60, e61⟩ := blockIndex_layer1 t
  have ht : t.val < 25 := lt_of_lt_of_eq t.isLt N_0
  funext j
  obtain ⟨p, q, rfl⟩ : ∃ (p : Fin 4000) (q : Fin 128), j = ix2 p q := ⟨j 0, j 1, eq_ix2 j⟩
  have hemb : ((cfg0.win 6).blk t).view.emb (ix2 p q) = ix2 (rowOf t.val ht p) q := by
    have hp := p.isLt
    refine funext fun a => Fin.ext ?_
    match a with
    | ⟨0, _⟩ => show win0_6.index t (0 : Fin 2) * 4000 + 1 * p.val = t.val * 4000 + p.val; omega
    | ⟨1, _⟩ => show win0_6.index t (1 : Fin 2) * 128 + 1 * q.val = q.val; omega
  have hx : ∀ (p : Fin 4000) (k : Fin 128), (iblk0 V c 0 t : Vec Ideal S4000x128 .f32) (ix2 p k) = V c main_arg0 (ix2 (rowOf t.val ht p) k) := fun p k => by
    have hp := p.isLt
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have hhn : ∀ (p : Fin 4000) (k : Fin 128), (iblk0 V c 1 t : Vec Ideal S4000x128 .f32) (ix2 p k) = V c main_v18 (ix2 (rowOf t.val ht p) k) := fun p k => by
    have hp := p.isLt
    show V c main_v18 (((cfg0.win 1).blk t).view.emb (ix2 p k)) = _
    refine congrArg (V c main_v18) (funext fun a => Fin.ext ?_)
    match a with
    | ⟨0, _⟩ => show win0_1.index t (0 : Fin 2) * 4000 + 1 * p.val = t.val * 4000 + p.val; omega
    | ⟨1, _⟩ => show win0_1.index t (1 : Fin 2) * 128 + 1 * k.val = k.val; omega
  have hm : ∀ (p : Fin 4000) (k : Fin 128), (iblk0 V c 5 t : Vec Ideal S4000x128 .f32) (ix2 p k) = V c main_v21 (ix2 (rowOf t.val ht p) k) := fun p k => by
    have hp := p.isLt
    show V c main_v21 (((cfg0.win 5).blk t).view.emb (ix2 p k)) = _
    refine congrArg (V c main_v21) (funext fun a => Fin.ext ?_)
    match a with
    | ⟨0, _⟩ => show win0_5.index t (0 : Fin 2) * 4000 + 1 * p.val = t.val * 4000 + p.val; omega
    | ⟨1, _⟩ => show win0_5.index t (1 : Fin 2) * 128 + 1 * k.val = k.val; omega
  have hws : ∀ (k q : Fin 128), (iblk0 V c 2 t : Vec Ideal S128x128 .f32) (ix2 k q) = V c main_arg3 (ix2 k q) := fun k q => by
    show V c main_arg3 (((cfg0.win 2).blk t).view.emb (ix2 k q)) = _
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  have hwn : ∀ (k q : Fin 128), (iblk0 V c 3 t : Vec Ideal S128x128 .f32) (ix2 k q) = V c main_arg4 (ix2 k q) := fun k q => by
    show V c main_arg4 (((cfg0.win 3).blk t).view.emb (ix2 k q)) = _
    refine congrArg (V c main_arg4) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have hb : ∀ (q : Fin 128), (iblk0 V c 4 t : Vec Ideal S1x128 .f32) (ix2 0 q) = V c main_v22 (ix2 0 q) := fun q => by
    show V c main_v22 (((cfg0.win 4).blk t).view.emb (ix2 0 q)) = _
    refine congrArg (V c main_v22) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  show k0_pay1 (F := Ideal) (iblk0 V c 0 t) (iblk0 V c 1 t) (iblk0 V c 2 t) (iblk0 V c 3 t) (iblk0 V c 4 t) (iblk0 V c 5 t) (ix2 p q)
    = Sage.hiddenOf (V c main_arg0) (V c main_v18) (V c main_arg3) (V c main_arg4) (fun q => V c main_v22 (ix2 0 q)) (V c main_v21) (((cfg0.win 6).blk t).view.emb (ix2 p q))
  rw [hemb]
  exact hidden_block (V c main_arg0) (V c main_v18) (V c main_v21) (V c main_arg3) (V c main_arg4) (V c main_v22)
    (iblk0 V c 0 t) (iblk0 V c 1 t) (iblk0 V c 5 t) (iblk0 V c 2 t) (iblk0 V c 3 t) (iblk0 V c 4 t)
    (rowOf t.val ht) hx hhn hm hws hwn hb p q

/-- An index of the first region's output array lies in point `t`'s block iff each coordinate is in the block's range. -/
theorem mem_block_layer1 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v23).slice (win0_6.rect t)).set ↔ _
  rw [View.set_slice_whole, Rect.mem_set_unit]
  exact Iff.rfl

/-- The 25 row blocks tile the output array: row `r` lies in the block of point `r / 4000`. -/
theorem tiles_layer1 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := lt_of_lt_of_eq (by omega : (i 0).val / 4000 < 25) N_0.symm
  obtain ⟨-, -, -, -, -, -, -, -, -, -, -, -, e60, e61⟩ := blockIndex_layer1 ⟨(i 0).val / 4000, hN⟩
  refine ⟨⟨(i 0).val / 4000, hN⟩, flush0_6 _, ?_⟩
  rw [mem_block_layer1]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [e60]
    show (i 0).val / 4000 * 4000 ≤ (i 0).val ∧ (i 0).val < (i 0).val / 4000 * 4000 + 4000
    omega
  | ⟨1, _⟩ =>
    show win0_6.index ⟨(i 0).val / 4000, hN⟩ (1 : Fin 2) * 128 ≤ (i 1).val ∧ (i 1).val < win0_6.index ⟨(i 0).val / 4000, hN⟩ (1 : Fin 2) * 128 + 128
    omega

/-- After the first region its output array holds the first layer's function of the arrays the region found on entry. -/
theorem hiddenArray (c : Dev nD) :
    (dat0 V c).arrAt 6 cfg0.N
      = Sage.hiddenOf (V c main_arg0) (V c main_v18) (V c main_arg3) (V c main_arg4) (fun q => V c main_v22 (ix2 0 q)) (V c main_v21) :=
  (dat0 V c).arrAt_eq_of_cover 6 _ (fun t _ => writeback_layer1 V c t) tiles_layer1

/-! ## The second region -/

/-- The printed index maps over the 25 grid points: the row-blocked windows sit at block `(t, 0)`, the weights and the
    bias row at block `(0, 0)`. -/
theorem blockIndex_layer2 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the second layer's function of the arrays the region finds. -/
theorem writeback_layer2 (c : Dev nD) (t : Fin cfg1.N) :
    (dat1 V c).flushed 5 t = ((cfg1.win 5).blk t).view.read (Elt Ideal)
      (Sage.outOf (V c main_v23) (V c main_v42) (V c main_arg6) (V c main_arg7) (fun q => V c main_v43 (ix2 0 q))) := by
  show (cfg1.win 5).cut (grid1.coords t) ((dat1 V c).after 5 t) = _
  rw [after1_5]
  unfold out1_5
  rw [View.canon_unit_zero zeroOffsets]
  simp only [View.ld_unit_zero (S := S4000x128) zeroOffsets, View.ld_unit_zero (S := S128x128) zeroOffsets, View.ld_unit_zero (S := S1x128) zeroOffsets]
  obtain ⟨e00, e01, e10, e11, e20, e21, e30, e31, e40, e41, e50, e51⟩ := blockIndex_layer2 t
  have ht : t.val < 25 := lt_of_lt_of_eq t.isLt N_1
  funext j
  obtain ⟨p, q, rfl⟩ : ∃ (p : Fin 4000) (q : Fin 128), j = ix2 p q := ⟨j 0, j 1, eq_ix2 j⟩
  have hemb : ((cfg1.win 5).blk t).view.emb (ix2 p q) = ix2 (rowOf t.val ht p) q := by
    have hp := p.isLt
    refine funext fun a => Fin.ext ?_
    match a with
    | ⟨0, _⟩ => show win1_5.index t (0 : Fin 2) * 4000 + 1 * p.val = t.val * 4000 + p.val; omega
    | ⟨1, _⟩ => show win1_5.index t (1 : Fin 2) * 128 + 1 * q.val = q.val; omega
  have hx : ∀ (p : Fin 4000) (k : Fin 128), (iblk1 V c 0 t : Vec Ideal S4000x128 .f32) (ix2 p k) = V c main_v23 (ix2 (rowOf t.val ht p) k) := fun p k => by
    have hp := p.isLt
    show V c main_v23 (((cfg1.win 0).blk t).view.emb (ix2 p k)) = _
    refine congrArg (V c main_v23) (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have hhn : ∀ (p : Fin 4000) (k : Fin 128), (iblk1 V c 1 t : Vec Ideal S4000x128 .f32) (ix2 p k) = V c main_v42 (ix2 (rowOf t.val ht p) k) := fun p k => by
    have hp := p.isLt
    show V c main_v42 (((cfg1.win 1).blk t).view.emb (ix2 p k)) = _
    refine congrArg (V c main_v42) (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * k.val = k.val; omega
  have hws : ∀ (k q : Fin 128), (iblk1 V c 2 t : Vec Ideal S128x128 .f32) (ix2 k q) = V c main_arg6 (ix2 k q) := fun k q => by
    show V c main_arg6 (((cfg1.win 2).blk t).view.emb (ix2 k q)) = _
    refine congrArg (V c main_arg6) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  have hwn : ∀ (k q : Fin 128), (iblk1 V c 3 t : Vec Ideal S128x128 .f32) (ix2 k q) = V c main_arg7 (ix2 k q) := fun k q => by
    show V c main_arg7 (((cfg1.win 3).blk t).view.emb (ix2 k q)) = _
    refine congrArg (V c main_arg7) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have hb : ∀ (q : Fin 128), (iblk1 V c 4 t : Vec Ideal S1x128 .f32) (ix2 0 q) = V c main_v43 (ix2 0 q) := fun q => by
    show V c main_v43 (((cfg1.win 4).blk t).view.emb (ix2 0 q)) = _
    refine congrArg (V c main_v43) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = Sage.outOf (V c main_v23) (V c main_v42) (V c main_arg6) (V c main_arg7) (fun q => V c main_v43 (ix2 0 q)) (((cfg1.win 5).blk t).view.emb (ix2 p q))
  rw [hemb]
  exact out_block (V c main_v23) (V c main_v42) (V c main_arg6) (V c main_arg7) (V c main_v43)
    (iblk1 V c 0 t) (iblk1 V c 1 t) (iblk1 V c 2 t) (iblk1 V c 3 t) (iblk1 V c 4 t)
    (rowOf t.val ht) hx hhn hws hwn hb p q

/-- An index of the second region's output array lies in point `t`'s block iff each coordinate is in the block's range. -/
theorem mem_block_layer2 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v44).slice (win1_5.rect t)).set ↔ _
  rw [View.set_slice_whole, Rect.mem_set_unit]
  exact Iff.rfl

/-- The 25 row blocks tile the result array: row `r` lies in the block of point `r / 4000`. -/
theorem tiles_layer2 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 4000 < cfg1.N := lt_of_lt_of_eq (by omega : (i 0).val / 4000 < 25) N_1.symm
  obtain ⟨-, -, -, -, -, -, -, -, -, -, e50, e51⟩ := blockIndex_layer2 ⟨(i 0).val / 4000, hN⟩
  refine ⟨⟨(i 0).val / 4000, hN⟩, flush1_5 _, ?_⟩
  rw [mem_block_layer2]
  intro a
  match a with
  | ⟨0, _⟩ =>
    show win1_5.index ⟨(i 0).val / 4000, hN⟩ (0 : Fin 2) * 4000 ≤ (i 0).val ∧ (i 0).val < win1_5.index ⟨(i 0).val / 4000, hN⟩ (0 : Fin 2) * 4000 + 4000
    rw [e50]
    show (i 0).val / 4000 * 4000 ≤ (i 0).val ∧ (i 0).val < (i 0).val / 4000 * 4000 + 4000
    omega
  | ⟨1, _⟩ =>
    show win1_5.index ⟨(i 0).val / 4000, hN⟩ (1 : Fin 2) * 128 ≤ (i 1).val ∧ (i 1).val < win1_5.index ⟨(i 0).val / 4000, hN⟩ (1 : Fin 2) * 128 + 128
    omega

/-- After the second region the result array holds the second layer's function of the arrays the region found on entry. -/
theorem resultArray (c : Dev nD) :
    (dat1 V c).arrAt 5 cfg1.N
      = Sage.outOf (V c main_v23) (V c main_v42) (V c main_arg6) (V c main_arg7) (fun q => V c main_v43 (ix2 0 q)) :=
  (dat1 V c).arrAt_eq_of_cover 5 _ (fun t _ => writeback_layer2 V c t) tiles_layer2

end Cert.KernelIdeal.Blocks

end
-- ==== Proof.EntryContents.lean ====
/-
  What the two kernel regions find on entry, in terms of the launch memory.

  Before the first region the host computes the mean aggregate of the node table over incoming edges, the dropout mask
  from the uniform draws, and the first bias as a one-row matrix. Between the regions it computes the same aggregate of the
  first region's output and the second bias as a one-row matrix. Arguments no host operation writes are read back to the
  launch memory. The aggregate and the mask are named by the functions the reference's own operations define, so that
  both programs speak of one function.
-/
import proofs.«138506_j6193342841309_1_alg».proof.Proof.Gen.KernelIdeal.Frame
import proofs.«138506_j6193342841309_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-- The mean aggregate over incoming edges of a node array `x`, for edge lists `src`, `dst`: the gather of `x` along `src`,
    scatter-added along `dst`, divided by the in-degree clamped below at one. -/
abbrev aggregate (src dst : S1600000.Idx → BitVec 32) (x : S100000x128.Idx → EReal) : S100000x128.Idx → EReal :=
  Cert.ReferenceIdeal.Read.val_main_v18 (F := Ideal) x src dst

/-- The dropout mask of the uniform draws `u`: two where the draw exceeds one half, zero elsewhere. -/
abbrev dropMask (u : S100000x128.Idx → EReal) : S100000x128.Idx → EReal :=
  Cert.ReferenceIdeal.Read.val_main_v28 (F := Ideal) u

/-! ## Buffers no operation before the first region writes -/

theorem before1_src (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  simp only [hostOps0_2, hostOps0_1, hostOps0]
  after_results_simp <;> rfl
theorem before1_dst (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp <;> rfl
theorem before1_wself2 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  simp only [hostOps0_2, hostOps0_1, hostOps0]
  after_results_simp <;> rfl
theorem before1_wneigh2 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  simp only [hostOps0_2, hostOps0_1, hostOps0]
  after_results_simp <;> rfl
theorem before1_bias2 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  simp only [hostOps0_2, hostOps0_1, hostOps0]
  after_results_simp <;> rfl

/-! ## What the first region finds -/

theorem entry1_nodes (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp <;> rfl
theorem entry1_wself (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp <;> rfl
theorem entry1_wneigh (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  simp only [hostOps0_2, hostOps0_1, hostOps0]
  after_results_simp <;> rfl

/-- The aggregate window's array is the mean aggregate of the node table. -/
theorem entry1_aggregate (c : Dev nD) :
    V3 m ρ c main_v18 = aggregate (m ((c : Thread nD τ).loc main_arg1)) (m ((c : Thread nD τ).loc main_arg2)) (m ((c : Thread nD τ).loc main_arg0)) := by
  show StableHlo.after hostOps0_2 (StableHlo.after hostOps0_1 (StableHlo.after hostOps0 (W0 m ρ c))) (Proc.devRef .tc main_v18) = _
  simp only [hostOps0_2, hostOps0_1, hostOps0]
  after_results_simp <;> rfl

/-- The mask window's array is the dropout mask of the uniform draws. -/
theorem entry1_mask (c : Dev nD) :
    V3 m ρ c main_v21 = dropMask (m ((c : Thread nD τ).loc main_arg9)) := by
  show StableHlo.after hostOps0_2 (StableHlo.after hostOps0_1 (StableHlo.after hostOps0 (W0 m ρ c))) (Proc.devRef .tc main_v21) = _
  simp only [hostOps0_2, hostOps0_1, hostOps0]
  after_results_simp <;> rfl

/-- A 128-vector reshaped to one row, read at `(0, q)`, is the vector's entry `q`. -/
theorem row_of_vector_apply {α : Type} (b : S128.Idx → α) (q : Fin 128) :
    shapeCast S1x128 b shapeCasts_S128_S1x128 (ix2 0 q) = b (ix1 q) :=
  shapeCast_apply b shapeCasts_S128_S1x128 (ix2 0 q) (ix1 q) (by
    rw [Shape.rowMajor_val_one, Shape.rowMajor_val_two]
    show q.val = 0 * 128 + q.val
    omega)

/-- The bias row's entry `q` is the first bias's entry `q`. -/
theorem entry1_bias (c : Dev nD) (q : Fin 128) :
    V3 m ρ c main_v22 (ix2 0 q) = m ((c : Thread nD τ).loc main_arg5) (ix1 q) := by
  show StableHlo.after hostOps0_2 (StableHlo.after hostOps0_1 (StableHlo.after hostOps0 (W0 m ρ c))) (Proc.devRef .tc main_v22) (ix2 0 q) = _
  simp only [hostOps0_2, hostOps0_1, hostOps0]
  after_results_simp
  exact row_of_vector_apply (m ((c : Thread nD τ).loc main_arg5)) q

/-! ## What the second region finds -/

/-- The first region's output array as the region leaves it. -/
theorem after1_hidden (c : Dev nD) : W4 m ρ c (Proc.devRef .tc main_v23) = (dat0 (V3 m ρ) c).arrAt 6 cfg0.N := W4_arr m ρ c 6
theorem after1_src (c : Dev nD) : W4 m ρ c (Proc.devRef .tc main_arg1) = m ((c : Thread nD τ).loc main_arg1) :=
  (W4_of_ne m ρ c main_arg1 (by decide)).trans (before1_src m ρ c)
theorem after1_dst (c : Dev nD) : W4 m ρ c (Proc.devRef .tc main_arg2) = m ((c : Thread nD τ).loc main_arg2) :=
  (W4_of_ne m ρ c main_arg2 (by decide)).trans (before1_dst m ρ c)
theorem after1_wself2 (c : Dev nD) : W4 m ρ c (Proc.devRef .tc main_arg6) = m ((c : Thread nD τ).loc main_arg6) :=
  (W4_of_ne m ρ c main_arg6 (by decide)).trans (before1_wself2 m ρ c)
theorem after1_wneigh2 (c : Dev nD) : W4 m ρ c (Proc.devRef .tc main_arg7) = m ((c : Thread nD τ).loc main_arg7) :=
  (W4_of_ne m ρ c main_arg7 (by decide)).trans (before1_wneigh2 m ρ c)
theorem after1_bias2 (c : Dev nD) : W4 m ρ c (Proc.devRef .tc main_arg8) = m ((c : Thread nD τ).loc main_arg8) :=
  (W4_of_ne m ρ c main_arg8 (by decide)).trans (before1_bias2 m ρ c)

theorem entry2_nodes (c : Dev nD) : V5 m ρ c main_v23 = (dat0 (V3 m ρ) c).arrAt 6 cfg0.N := by
  show StableHlo.after hostOps1 (W4 m ρ c) (Proc.devRef .tc main_v23) = _
  simp only [hostOps1]
  after_results_simp
  exact after1_hidden m ρ c
theorem entry2_wself (c : Dev nD) : V5 m ρ c main_arg6 = m ((c : Thread nD τ).loc main_arg6) := by
  show StableHlo.after hostOps1 (W4 m ρ c) (Proc.devRef .tc main_arg6) = _
  simp only [hostOps1]
  after_results_simp
  exact after1_wself2 m ρ c
theorem entry2_wneigh (c : Dev nD) : V5 m ρ c main_arg7 = m ((c : Thread nD τ).loc main_arg7) := by
  show StableHlo.after hostOps1 (W4 m ρ c) (Proc.devRef .tc main_arg7) = _
  simp only [hostOps1]
  after_results_simp
  exact after1_wneigh2 m ρ c

/-- The second aggregate window's array is the mean aggregate of the first region's output. -/
theorem entry2_aggregate (c : Dev nD) :
    V5 m ρ c main_v42 = aggregate (m ((c : Thread nD τ).loc main_arg1)) (m ((c : Thread nD τ).loc main_arg2)) ((dat0 (V3 m ρ) c).arrAt 6 cfg0.N) := by
  show StableHlo.after hostOps1 (W4 m ρ c) (Proc.devRef .tc main_v42) = _
  simp only [hostOps1]
  after_results_simp
  rw [after1_hidden, after1_src, after1_dst]
  rfl

/-- The second bias row's entry `q` is the second bias's entry `q`. -/
theorem entry2_bias (c : Dev nD) (q : Fin 128) :
    V5 m ρ c main_v43 (ix2 0 q) = m ((c : Thread nD τ).loc main_arg8) (ix1 q) := by
  show StableHlo.after hostOps1 (W4 m ρ c) (Proc.devRef .tc main_v43) (ix2 0 q) = _
  simp only [hostOps1]
  after_results_simp
  rw [after1_bias2]
  exact row_of_vector_apply (m ((c : Thread nD τ).loc main_arg8)) q

end Cert.KernelIdeal.Entry

end
-- ==== Proof.KernelValue.lean ====
/-
  The idealized kernel's result array as the two layers' whole-array functions of the launch memory.

  The run leaves the result buffer at the second region's output array. That array is the second layer's function of what
  the second region found: the first region's output, its mean aggregate, the second weights and bias. The first region's
  output is in turn the first layer's function of the node table, its mean aggregate, the first weights and bias, and
  the dropout mask.
-/
import proofs.«138506_j6193342841309_1_alg».proof.Proof.ResultRun
import proofs.«138506_j6193342841309_1_alg».proof.Proof.Blocks
import proofs.«138506_j6193342841309_1_alg».proof.Proof.EntryContents

set_option maxRecDepth 16384

noncomputable section

namespace Cert.KernelIdeal.Layers

open Cert.KernelIdeal Cert.KernelIdeal.Gen Cert.KernelIdeal.Entry Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer's array of the launch memory. -/
abbrev hidden (c : Dev nD) : Sage.Nodes.Idx → EReal :=
  Sage.hiddenOf (m ((c : Thread nD τ).loc main_arg0))
    (aggregate (m ((c : Thread nD τ).loc main_arg1)) (m ((c : Thread nD τ).loc main_arg2)) (m ((c : Thread nD τ).loc main_arg0)))
    (m ((c : Thread nD τ).loc main_arg3)) (m ((c : Thread nD τ).loc main_arg4)) (fun q => m ((c : Thread nD τ).loc main_arg5) (ix1 q))
    (dropMask (m ((c : Thread nD τ).loc main_arg9)))

/-- The second layer's array of the launch memory: the result. -/
abbrev result (c : Dev nD) : Sage.Nodes.Idx → EReal :=
  Sage.outOf (hidden m c)
    (aggregate (m ((c : Thread nD τ).loc main_arg1)) (m ((c : Thread nD τ).loc main_arg2)) (hidden m c))
    (m ((c : Thread nD τ).loc main_arg6)) (m ((c : Thread nD τ).loc main_arg7)) (fun q => m ((c : Thread nD τ).loc main_arg8) (ix1 q))

/-- The first region leaves the first layer's array. -/
theorem hidden_value (c : Dev nD) : (dat0 (V3 m ρ) c).arrAt 6 cfg0.N = hidden m c := by
  have hb : (fun q : Fin 128 => V3 m ρ c main_v22 (ix2 0 q)) = fun q => m ((c : Thread nD τ).loc main_arg5) (ix1 q) :=
    funext fun q => entry1_bias m ρ c q
  rw [Blocks.hiddenArray (V3 m ρ) c, entry1_nodes, entry1_aggregate, entry1_wself, entry1_wneigh, entry1_mask, hb]

/-- The second region leaves the result. -/
theorem result_value (c : Dev nD) : W6 m ρ c (Proc.devRef .tc main_v44) = result m c := by
  refine (W6_arr m ρ c 5).trans ?_
  have hb : (fun q : Fin 128 => V5 m ρ c main_v43 (ix2 0 q)) = fun q => m ((c : Thread nD τ).loc main_arg8) (ix1 q) :=
    funext fun q => entry2_bias m ρ c q
  rw [Blocks.resultArray (V5 m ρ) c, entry2_nodes, entry2_aggregate, entry2_wself, entry2_wneigh, hidden_value, hb]

/-- The idealized kernel's run with the result array named. -/
theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_value m ρ c), (h c).2⟩) (ResultRun.run_result m ρ)

end Cert.KernelIdeal.Layers

end
-- ==== Proof.RefSide.lean ====
/-
  The reference's result as the two layers' whole-array functions.

  Reading the reference one operation at a time: its first dense stage at node `p`, feature `q` is the self product plus
  the neighbour product plus the bias; the clamp and the dropout mask give the first layer's array; the second mean
  aggregate is the SAME operations applied to that array; the last dense stage is the result.
-/
import proofs.«138506_j6193342841309_1_alg».proof.Defs
import proofs.«138506_j6193342841309_1_alg».proof.Proof.Gen.ReferenceIdeal.Run
import proofs.«138506_j6193342841309_1_alg».proof.Proof.Gen.ReferenceIdeal.Read
import proofs.«138506_j6193342841309_1_alg».proof.Proof.SageSpec

noncomputable section

namespace Cert.ReferenceIdeal.Layers

open Cert.ReferenceIdeal Cert.ReferenceIdeal.Gen Cert.ReferenceIdeal.Read Idealize.ShloMosaic Idealize.ShloMosaic.TcCoe Idealize.SL.Sem Idealize.ShloMosaic.ValueIdx

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 : (⟨S100000x128, .f32⟩ : BufTy).Contents (Elt Ideal))

/-- A product's left operand is read at the output's row and the contracted index, its right operand at the contracted
    index and the output's column: the four products of the two layers. -/
theorem left1s (i : S100000x128.Idx) (k : Fin 128) : lidx_main_v19 i k = ix2 (i 0) k :=
  funext fun a => Fin.ext (by match a with | ⟨0, _⟩ => rfl | ⟨1, _⟩ => rfl)
theorem right1s (i : S100000x128.Idx) (k : Fin 128) : ridx_main_v19 i k = ix2 k (i 1) :=
  funext fun a => Fin.ext (by match a with | ⟨0, _⟩ => rfl | ⟨1, _⟩ => rfl)
theorem left1n (i : S100000x128.Idx) (k : Fin 128) : lidx_main_v20 i k = ix2 (i 0) k :=
  funext fun a => Fin.ext (by match a with | ⟨0, _⟩ => rfl | ⟨1, _⟩ => rfl)
theorem right1n (i : S100000x128.Idx) (k : Fin 128) : ridx_main_v20 i k = ix2 k (i 1) :=
  funext fun a => Fin.ext (by match a with | ⟨0, _⟩ => rfl | ⟨1, _⟩ => rfl)
theorem left2s (i : S100000x128.Idx) (k : Fin 128) : lidx_main_v49 i k = ix2 (i 0) k :=
  funext fun a => Fin.ext (by match a with | ⟨0, _⟩ => rfl | ⟨1, _⟩ => rfl)
theorem right2s (i : S100000x128.Idx) (k : Fin 128) : ridx_main_v49 i k = ix2 k (i 1) :=
  funext fun a => Fin.ext (by match a with | ⟨0, _⟩ => rfl | ⟨1, _⟩ => rfl)
theorem left2n (i : S100000x128.Idx) (k : Fin 128) : lidx_main_v50 i k = ix2 (i 0) k :=
  funext fun a => Fin.ext (by match a with | ⟨0, _⟩ => rfl | ⟨1, _⟩ => rfl)
theorem right2n (i : S100000x128.Idx) (k : Fin 128) : ridx_main_v50 i k = ix2 k (i 1) :=
  funext fun a => Fin.ext (by match a with | ⟨0, _⟩ => rfl | ⟨1, _⟩ => rfl)
/-- A bias, made a row and broadcast down the nodes, is read at the output's column. -/
theorem bias1_at (i : S100000x128.Idx) : idx_main_v22 (idx_main_v23 i) = ix1 (i 1) :=
  funext fun a => Fin.ext (by match a with | ⟨0, _⟩ => rfl)
theorem bias2_at (i : S100000x128.Idx) : idx_main_v52 (idx_main_v53 i) = ix1 (i 1) :=
  funext fun a => Fin.ext (by match a with | ⟨0, _⟩ => rfl)

/-- The first dense stage at an index: the layer's dense part over the node table and its mean aggregate. -/
theorem dense1_apply (i : S100000x128.Idx) :
    val_main_v24 (F := Ideal) x0 x1 x2 x3 x4 x5 i
      = Sage.layerAt x0 (val_main_v18 (F := Ideal) x0 x1 x2) x3 x4 (fun q => x5 (ix1 q)) (i 0) (i 1) := by
  rw [val_main_v24_apply, val_main_v21_apply, val_main_v19_apply, val_main_v20_apply, val_main_v23_apply, val_main_v22_apply]
  unfold Sage.layerAt
  simp only [left1s, right1s, left1n, right1n, bias1_at]
  rfl

/-- The first layer's array: the dense stage clamped below at zero, times the dropout mask. -/
theorem hidden_eq :
    val_main_v29 (F := Ideal) x0 x1 x2 x3 x4 x5 x9
      = Sage.hiddenOf x0 (val_main_v18 (F := Ideal) x0 x1 x2) x3 x4 (fun q => x5 (ix1 q)) (val_main_v28 (F := Ideal) x9) := by
  funext i
  rw [val_main_v29_apply, val_main_v25_apply, dense1_apply, val_main_call0_v0_apply, val_main_call0_cst_apply]
  rfl

/-- The second mean aggregate is the first one's operations applied to the first layer's array. -/
theorem aggregate2_eq :
    val_main_v48 (F := Ideal) x0 x1 x2 x3 x4 x5 x9 = val_main_v18 (F := Ideal) (val_main_v29 (F := Ideal) x0 x1 x2 x3 x4 x5 x9) x1 x2 := rfl

/-- The result: the second layer's dense part over the first layer's array and its mean aggregate. -/
theorem result_eq :
    val_main_v54 (F := Ideal) x0 x1 x2 x3 x4 x5 x6 x7 x8 x9
      = Sage.outOf (Sage.hiddenOf x0 (val_main_v18 (F := Ideal) x0 x1 x2) x3 x4 (fun q => x5 (ix1 q)) (val_main_v28 (F := Ideal) x9))
          (val_main_v18 (F := Ideal) (Sage.hiddenOf x0 (val_main_v18 (F := Ideal) x0 x1 x2) x3 x4 (fun q => x5 (ix1 q)) (val_main_v28 (F := Ideal) x9)) x1 x2)
          x6 x7 (fun q => x8 (ix1 q)) := by
  funext i
  rw [val_main_v54_apply, val_main_v51_apply, val_main_v49_apply, val_main_v50_apply, val_main_v53_apply, val_main_v52_apply,
    aggregate2_eq, hidden_eq]
  unfold Sage.outOf Sage.layerAt
  simp only [left2s, right2s, left2n, right2n, bias2_at]
  rfl

/-- The reference run's result term is the second layer's array of the launch memory's arguments. -/
theorem res_eq (m : (ℓ : Loc nD τ sig) → Buf (Elt Ideal) ℓ) (c : Dev nD) :
    Cert.ReferenceIdeal.Value.res_main_v54 m c
      = Sage.outOf
          (Sage.hiddenOf (m ((c.tc : Thread nD τ).loc main_arg0))
            (val_main_v18 (F := Ideal) (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (fun q => m ((c.tc : Thread nD τ).loc main_arg5) (ix1 q))
            (val_main_v28 (F := Ideal) (m ((c.tc : Thread nD τ).loc main_arg9))))
          (val_main_v18 (F := Ideal)
            (Sage.hiddenOf (m ((c.tc : Thread nD τ).loc main_arg0))
              (val_main_v18 (F := Ideal) (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)) (fun q => m ((c.tc : Thread nD τ).loc main_arg5) (ix1 q))
              (val_main_v28 (F := Ideal) (m ((c.tc : Thread nD τ).loc main_arg9))))
            (m ((c.tc : Thread nD τ).loc main_arg1)) (m ((c.tc : Thread nD τ).loc main_arg2)))
          (m ((c.tc : Thread nD τ).loc main_arg6)) (m ((c.tc : Thread nD τ).loc main_arg7)) (fun q => m ((c.tc : Thread nD τ).loc main_arg8) (ix1 q)) :=
  (val_main_v54_eq m c).trans (result_eq _ _ _ _ _ _ _ _ _ _)

end Cert.ReferenceIdeal.Layers

end
-- ==== Proof.lean ====
/-
  A two-layer GraphSAGE forward pass with mean aggregation: the tiled kernel against the whole-array reference, equal as
  extended reals.

  Both programs compute, for each layer, at node `p` and feature `q`,
      (∑ k, x[p,k] · W_self[k,q]) + (∑ k, h_neigh[p,k] · W_neigh[k,q]) + b[q],
  with `h_neigh` the mean of `x` over incoming edges; the first layer is clamped below at zero and multiplied by a dropout
  mask fixed by the uniform draws. The kernel forms the two products of a layer block by block over 4000 rows with bf16
  operands, which on the extended reals are the operands themselves, and the reference forms them over the whole table; a
  row's sums over `k` are the same sums either way. The mean aggregate and the mask are the same host operations in both
  programs and are never opened. No law of the extended reals beyond reading the two sides index by index is needed, so
  the finiteness of the inputs is not used.
-/
import proofs.«138506_j6193342841309_1_alg».proof.Defs
import proofs.«138506_j6193342841309_1_alg».proof.Proof.Gen.Kernel
import proofs.«138506_j6193342841309_1_alg».proof.Proof.Gen.Kernel.Frame
import proofs.«138506_j6193342841309_1_alg».proof.Proof.Gen.KernelIdeal
import proofs.«138506_j6193342841309_1_alg».proof.Proof.Gen.KernelIdeal.Frame
import proofs.«138506_j6193342841309_1_alg».proof.Proof.Gen.ReferenceIdeal
import proofs.«138506_j6193342841309_1_alg».proof.Proof.Gen.ReferenceIdeal.Run
import proofs.«138506_j6193342841309_1_alg».proof.Proof.Gen.Pre_finite_inputs
import proofs.«138506_j6193342841309_1_alg».proof.Proof.KernelValue
import proofs.«138506_j6193342841309_1_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments, the idealized kernel's result array and the reference's are the second
    layer's array of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Layers.result m c, Cert.KernelIdeal.Layers.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Layers.res_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
